-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000 : Shape := ⟨1, ![1200000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S1200000 : S_.BroadcastsInDim S1200000 (![] : Fin 0 → Fin S1200000.rank)
  reducesTo_S1200000_S_d0 : S1200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_v28 : IVec S_ 1) (main_v33 : IVec S1200000 1) : IVec S_ 1 :=
  let main_c_12 : IVec S_ 1 := constantI S_ 1 1#1
  let main_v34 : IVec S_ 1 := (fun x v => Host.reduce IntOp.andi x v reducesTo_S1200000_S_d0 h_S_) main_v33 main_c_12
  let main_v35 : IVec S_ 1 := andi main_v28 main_v34
  main_v35

def fn_part1 {F : FTy → Type} [FloatOps F] (main_arg1 : IVec S1200000 32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294867296#32
  let main_v29 : IVec S1200000 32 := broadcastInDim S1200000 ![] bcast_S_S1200000 main_c_10
  let main_v30 : IVec S1200000 1 := cmpi .sge main_arg1 main_v29
  let main_c_11 : IVec S_ 32 := constantI S_ 32 100000#32
  let main_v31 : IVec S1200000 32 := broadcastInDim S1200000 ![] bcast_S_S1200000 main_c_11
  let main_v32 : IVec S1200000 1 := cmpi .slt main_arg1 main_v31
  let main_v33 : IVec S1200000 1 := andi main_v30 main_v32
  fn_part2 (F := F) main_v28 main_v33

def fn {F : FTy → Type} [FloatOps F] (main_arg0 : IVec S1200000 32) (main_arg1 : IVec S1200000 32) (main_arg2 : FVec F S1200000 .f32) (main_arg3 : FVec F S100000x64 .f32) (main_arg4 : FVec F S64x64 .f32) (main_arg5 : FVec F S64 .f32) (main_arg6 : FVec F S64x64 .f32) (main_arg7 : FVec F S64 .f32) : IVec S_ 1 :=
  let main_v0 : FVec F S1200000 .f32 := Host.absf main_arg2
  let main_cst : FVec F S_ .f32 := constant S_ .f32 0x7F800000#32
  let main_v1 : FVec F S1200000 .f32 := broadcastInDim S1200000 ![] bcast_S_S1200000 main_cst
  let main_v2 : IVec S1200000 1 := cmpf .olt main_v0 main_v1
  let main_c : IVec S_ 1 := constantI S_ 1 1#1
  let main_v3 : IVec S_ 1 := (fun x v => Host.reduce IntOp.andi x v reducesTo_S1200000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_v13 main_v16
-- ==== Kernel.lean ====
abbrev S1200000 : Shape := ⟨1, ![1200000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1 : Shape := ⟨1, ![1]⟩
abbrev S1x1 : Shape := ⟨2, ![1, 1]⟩
abbrev S1200000x64 : Shape := ⟨2, ![1200000, 64]⟩
abbrev S20000x64 : Shape := ⟨2, ![20000, 64]⟩
abbrev S20000x1 : Shape := ⟨2, ![20000, 1]⟩
abbrev S5000x64 : Shape := ⟨2, ![5000, 64]⟩
abbrev S1x64 : Shape := ⟨2, ![1, 64]⟩

abbrev nBuf : Space → Nat
  | .hbm => 43
  | .vmem => 20
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1, .i32⟩
  | .hbm, ⟨17, _⟩ => ⟨S_, .i32⟩
  | .hbm, ⟨18, _⟩ => ⟨S1200000x1, .i32⟩
  | .hbm, ⟨19, _⟩ => ⟨S1200000x1, .i1⟩
  | .hbm, ⟨20, _⟩ => ⟨S1x1, .i32⟩
  | .hbm, ⟨21, _⟩ => ⟨S1200000x1, .i32⟩
  | .hbm, ⟨22, _⟩ => ⟨S1200000x1, .i1⟩
  | .hbm, ⟨23, _⟩ => ⟨S1200000x1, .i1⟩
  | .hbm, ⟨24, _⟩ => ⟨S_, .i1⟩
  | .hbm, ⟨25, _⟩ => ⟨S1200000, .i1⟩
  | .hbm, ⟨26, _⟩ => ⟨S1200000x64, .f32⟩
  | .hbm, ⟨27, _⟩ => ⟨S1200000x64, .i1⟩
  | .hbm, ⟨28, _⟩ => ⟨S_, .f32⟩
  | .hbm, ⟨29, _⟩ => ⟨S1200000x64, .f32⟩
  | .hbm, ⟨30, _⟩ => ⟨S1200000x64, .f32⟩
  | .hbm, ⟨31, _⟩ => ⟨S1200000x1, .f32⟩
  | .hbm, ⟨32, _⟩ => ⟨S1200000x64, .f32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S1200000x1, .i32⟩
  | .hbm, ⟨41, _⟩ => ⟨S100000x64, .f32⟩
  | .hbm, ⟨42, _⟩ => ⟨S100000x64, .f32⟩
  | .local _ .vmem, ⟨0, _⟩ => ⟨S20000x64, .f32⟩
  | .local _ .vmem, ⟨1, _⟩ => ⟨S20000x64, .f32⟩
  | .local _ .vmem, ⟨2, _⟩ => ⟨S20000x1, .f32⟩
  | .local _ .vmem, ⟨3, _⟩ => ⟨S20000x1, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2_0 : Ref sig .tc := ⟨.hbm, 32, rfl⟩
abbrev main_v2_1 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_cst_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  shapeCasts_S1200000_S1200000x1 : S1200000.ShapeCasts S1200000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1200000x64.size a
  hwx0_0 : ∀ i : grid0.Coords, EltTy.bits .f32 = 32 ∨ (Rect.block (s := S1200000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1200000x1.size a
  hwx0_1 : ∀ i : grid0.Coords, EltTy.bits .f32 = 32 ∨ (Rect.block (s := S1200000x1) S20000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S1200000x64.size a
  hwx0_2 : ∀ i : grid0.Coords, EltTy.bits .f32 = 32 ∨ (Rect.block (s := S1200000x64) S20000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S1200000x64.size a
  hwx0_3 : ∀ i : grid0.Coords, EltTy.bits .f32 = 32 ∨ (Rect.block (s := S1200000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S20000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1200000 : Shape := ⟨1, ![1200000]⟩
abbrev S100000x64 : Shape := ⟨2, ![100000, 64]⟩
abbrev S64x64 : Shape := ⟨2, ![64, 64]⟩
abbrev S64 : Shape := ⟨1, ![64]⟩
abbrev S1200000x1 : Shape := ⟨2, ![1200000, 1]⟩
abbrev S_ : Shape := ⟨0, ![]⟩
abbrev S1200000x64 : Shape := ⟨2, ![1200000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1200000x1, .f32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S1200000x64, .f32⟩
  | .hbm, ⟨19, _⟩ => ⟨S1200000x64, .f32⟩
  | .hbm, ⟨20, _⟩ => ⟨S_, .f32⟩
  | .hbm, ⟨21, _⟩ => ⟨S100000x64, .f32⟩
  | .hbm, ⟨22, _⟩ => ⟨S1200000x1, .i32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1200000x1, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x64, .f32⟩
  | .hbm, ⟨36, _⟩ => ⟨S1200000x64, .f32⟩
  | .hbm, ⟨37, _⟩ => ⟨S1200000x64, .f32⟩
  | .hbm, ⟨38, _⟩ => ⟨S_, .f32⟩
  | .hbm, ⟨39, _⟩ => ⟨S100000x64, .f32⟩
  | .hbm, ⟨40, _⟩ => ⟨S1200000x1, .i32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S100000x64, .f32⟩
  | _, _ => ⟨S1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.ColumnRange.lean ====
/-
  What the precondition says of the column indices. The precondition is a conjunction of seven tests; the last one,
  added to the generated finiteness tests, is "every column index c satisfies -100000 ≤ c < 100000" (as signed 32-bit
  words), an `all` over the 1,200,000 edges. From the conjunction's value 1 we read that test off, entry by entry.
-/
import proofs.«423488_j24550033064401_1_alg».proof.Pre_finite_inputs
import Idealize.ShloMosaic.Lib.ReduceAll
import Idealize.ShloMosaic.Lib.ValueIdx
import Idealize.ShloMosaic.Lib.Affine

noncomputable section

namespace Cert.Pre_finite_inputs.ColumnRange

open Cert.Pre_finite_inputs Idealize.ShloMosaic

variable [Cert.Pre_finite_inputs.Facts]
variable {F : FTy → Type} [FloatOps F]

instance : Subsingleton S_.Idx := ⟨fun a b => funext fun d => d.elim0⟩

/-- Under the precondition every column index, read as a signed word, lies in `[-100000, 100000)`. -/
theorem cols_range (a0 a1 : IVec S1200000 32) (a2 : FVec F S1200000 .f32) (a3 : FVec F S100000x64 .f32)
    (a4 : FVec F S64x64 .f32) (a5 : FVec F S64 .f32) (a6 : FVec F S64x64 .f32) (a7 : FVec F S64 .f32)
    (h : fn (F := F) a0 a1 a2 a3 a4 a5 a6 a7 = fun _ => 1#1) (e : S1200000.Idx) :
    (-100000 : Int) ≤ (a1 e).toInt ∧ (a1 e).toInt < 100000 := by
  have h0 := congrFun h ValueIdx.ix0
  dsimp only [fn, fn_part1, fn_part2] at h0
  have h1 := (IntOp.andi_eq_one.1 h0).2
  have h2 := Host.reduce_andi_all _ _ _ _ ValueIdx.ix0 h1 e
  obtain ⟨h3, h4⟩ := IntOp.andi_eq_one.1 h2
  have h5 : (4294867296#32 : BitVec 32).toInt ≤ (a1 e).toInt := IntOp.cmpi_sge.1 h3
  have h6 : (a1 e).toInt < (100000#32 : BitVec 32).toInt := IntOp.cmpi_slt.1 h4
  have c1 : (4294867296#32 : BitVec 32).toInt = -100000 := by decide
  have c2 : (100000#32 : BitVec 32).toInt = 100000 := by decide
  omega

end Cert.Pre_finite_inputs.ColumnRange

end
-- ==== Proof.EdgeStage.lean ====
/-
  The per-edge stage. The first launch walks the 1,200,000 edges in 60 blocks of 20,000 rows. At each block it
  reads the block of gathered feature rows `g` (20,000 × 64) and the block of edge weights `v` (20,000 × 1) and writes
  two blocks: `v · g` and `v · (g · g)`, the weight spread along the 64 features. The blocks tile the arrays, so after
  the launch the two result arrays are, entry by entry,
      msg1 (e, f) = v (e, 0) · g (e, f)        msg2 (e, f) = v (e, 0) · (g (e, f) · g (e, f)),
  whatever the float operations are: only one multiplication per entry (two for the square) is involved.
-/
import proofs.«423488_j24550033064401_1_alg».proof.Proof.Gen.KernelIdeal.Frame
import Idealize.ShloMosaic.Lib.Pipeline.Value
import Idealize.ShloMosaic.Lib.ValueIdx

set_option maxRecDepth 16384

noncomputable section

namespace Cert.KernelIdeal.EdgeStage

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- Entry `(e, 0)` of the weight column: what row `e` of a 64-wide array reads of it. -/
abbrev wcol (i : S1200000x64.Idx) : S1200000x1.Idx := fun a => match a with
  | ⟨0, _⟩ => ⟨(i 0).val, (i 0).isLt⟩
  | ⟨1, _⟩ => ⟨0, Nat.one_pos⟩

/-- The same inside one block of 20,000 rows. -/
abbrev bcol (j : S20000x64.Idx) : S20000x1.Idx := fun a => match a with
  | ⟨0, _⟩ => ⟨(j 0).val, (j 0).isLt⟩
  | ⟨1, _⟩ => ⟨0, Nat.one_pos⟩

/-- The first message array: the edge's weight times the gathered feature. -/
def msg1 (g : S1200000x64.Idx → Elt F .f32) (v : S1200000x1.Idx → Elt F .f32) : S1200000x64.Idx → Elt F .f32 :=
  fun i => FloatOps.mulf (v (wcol i)) (g i)

/-- The second message array: the edge's weight times the square of the gathered feature. -/
def msg2 (g : S1200000x64.Idx → Elt F .f32) (v : S1200000x1.Idx → Elt F .f32) : S1200000x64.Idx → Elt F .f32 :=
  fun i => FloatOps.mulf (v (wcol i)) (FloatOps.mulf (g i) (g i))

/-- A weight column spread over 64 lanes reads, at `(r, f)`, the column's entry `(r, 0)`. -/
theorem spread_apply (x : S20000x1.Idx → Elt F .f32) (j : S20000x64.Idx) :
    broadcastTo S20000x64 x broadcasts_S20000x1_S20000x64 j = x (bcol j) :=
  broadcastTo_apply x broadcasts_S20000x1_S20000x64 j (bcol j) (fun a => match a with
    | ⟨0, _⟩ => by show (j 0).val = if (20000 : Nat) = 1 then 0 else (j 0).val; rw [if_neg (by decide)]
    | ⟨1, _⟩ => by show 0 = if (1 : Nat) = 1 then 0 else (j 1).val; rw [if_pos rfl])

/-- The first store's value, entry by entry, from the two loaded blocks. -/
theorem pay_msg1 (x0 : Vec F S20000x64 .f32) (x1 : Vec F S20000x1 .f32) (j : S20000x64.Idx) :
    k0_pay3 x0 x1 j = FloatOps.mulf (x1 (bcol j)) (x0 j) := by
  unfold k0_pay3 k0_pay2 k0_pay1
  show FloatOps.mulf (broadcastTo S20000x64 (shapeCast S20000x1 x1 shapeCasts_S20000x1_S20000x1) broadcasts_S20000x1_S20000x64 j)
      (shapeCast S20000x64 x0 shapeCasts_S20000x64_S20000x64 j) = _
  rw [shapeCast_self, shapeCast_self, spread_apply]

/-- The second store's value, entry by entry, from the two loaded blocks. -/
theorem pay_msg2 (x0 : Vec F S20000x64 .f32) (x1 : Vec F S20000x1 .f32) (j : S20000x64.Idx) :
    k0_pay4 x0 x1 j = FloatOps.mulf (x1 (bcol j)) (FloatOps.mulf (x0 j) (x0 j)) := by
  unfold k0_pay4 k0_pay2 k0_pay1
  show FloatOps.mulf (broadcastTo S20000x64 (shapeCast S20000x1 x1 shapeCasts_S20000x1_S20000x1) broadcasts_S20000x1_S20000x64 j)
      (FloatOps.mulf (shapeCast S20000x64 x0 shapeCasts_S20000x64_S20000x64 j) (shapeCast S20000x64 x0 shapeCasts_S20000x64_S20000x64 j)) = _
  rw [shapeCast_self, shapeCast_self, spread_apply]

theorem pay_msg1_fn (x0 : Vec F S20000x64 .f32) (x1 : Vec F S20000x1 .f32) :
    k0_pay3 x0 x1 = fun j => FloatOps.mulf (x1 (bcol j)) (x0 j) := funext (pay_msg1 x0 x1)

theorem pay_msg2_fn (x0 : Vec F S20000x64 .f32) (x1 : Vec F S20000x1 .f32) :
    k0_pay4 x0 x1 = fun j => FloatOps.mulf (x1 (bcol j)) (FloatOps.mulf (x0 j) (x0 j)) := funext (pay_msg2 x0 x1)

/-- The four index maps over the 60 blocks: every window's block at point `t` is block row `t`, block column `0`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back through the first output window is block `t` of `msg1`. -/
theorem flushed_msg1 (c : Dev nD) (t : Fin cfg0.N) :
    (dat0 V c).flushed 2 t = ((cfg0.win 2).blk t).view.read (Elt F) (msg1 (V c main_v0) (V c main_v1)) := by
  show (cfg0.win 2).cut (grid0.coords t) ((dat0 V c).after 2 t) = _
  rw [after0_2]
  unfold out0_2
  rw [View.canon_unit_zero zero_off]
  simp only [View.ld_unit_zero (S := S20000x64) zero_off, View.ld_unit_zero (S := S20000x1) zero_off]
  rw [pay_msg1_fn]
  obtain ⟨e00, e01, e10, e11, e20, e21, e30, e31⟩ := block_index t
  funext j
  show FloatOps.mulf (V c main_v1 (((cfg0.win 1).blk t).view.emb (bcol j))) (V c main_v0 (((cfg0.win 0).blk t).view.emb j))
    = FloatOps.mulf (V c main_v1 (wcol (((cfg0.win 2).blk t).view.emb j))) (V c main_v0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (bcol j) = wcol (((cfg0.win 2).blk t).view.emb j) := by
    funext a; apply Fin.ext
    match a with
    | ⟨0, _⟩ => show win0_1.index t (0 : Fin 2) * 20000 + 1 * (j 0).val = win0_2.index t (0 : Fin 2) * 20000 + 1 * (j 0).val; omega
    | ⟨1, _⟩ => show win0_1.index t (1 : Fin 2) * 1 + 1 * 0 = 0; omega
  rw [h0, h1]

/-- What point `t` writes back through the second output window is block `t` of `msg2`. -/
theorem flushed_msg2 (c : Dev nD) (t : Fin cfg0.N) :
    (dat0 V c).flushed 3 t = ((cfg0.win 3).blk t).view.read (Elt F) (msg2 (V c main_v0) (V c main_v1)) := by
  show (cfg0.win 3).cut (grid0.coords t) ((dat0 V c).after 3 t) = _
  rw [after0_3]
  unfold out0_3
  rw [View.canon_unit_zero zero_off]
  simp only [View.ld_unit_zero (S := S20000x64) zero_off, View.ld_unit_zero (S := S20000x1) zero_off]
  rw [pay_msg2_fn]
  obtain ⟨e00, e01, e10, e11, e20, e21, e30, e31⟩ := block_index t
  funext j
  show FloatOps.mulf (V c main_v1 (((cfg0.win 1).blk t).view.emb (bcol j)))
      (FloatOps.mulf (V c main_v0 (((cfg0.win 0).blk t).view.emb j)) (V c main_v0 (((cfg0.win 0).blk t).view.emb j)))
    = FloatOps.mulf (V c main_v1 (wcol (((cfg0.win 3).blk t).view.emb j)))
      (FloatOps.mulf (V c main_v0 (((cfg0.win 3).blk t).view.emb j)) (V c main_v0 (((cfg0.win 3).blk t).view.emb j)))
  have h0 : ((cfg0.win 0).blk t).view.emb j = ((cfg0.win 3).blk t).view.emb j := by
    funext a; apply Fin.ext
    match a with
    | ⟨0, _⟩ => show win0_0.index t (0 : Fin 2) * 20000 + 1 * (j 0).val = win0_3.index t (0 : Fin 2) * 20000 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb (bcol j) = wcol (((cfg0.win 3).blk t).view.emb j) := by
    funext a; apply Fin.ext
    match a with
    | ⟨0, _⟩ => show win0_1.index t (0 : Fin 2) * 20000 + 1 * (j 0).val = win0_3.index t (0 : Fin 2) * 20000 + 1 * (j 0).val; omega
    | ⟨1, _⟩ => show win0_1.index t (1 : Fin 2) * 1 + 1 * 0 = 0; omega
  rw [h0, h1]

/-- An index of a message array lies in point `t`'s block of the first output exactly when each coordinate lies in
    the block's range on its axis. -/
theorem mem_blk_msg1 (t : Fin cfg0.N) (i : S1200000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v2_0).slice (win0_2.rect t)).set ↔ _
  rw [View.set_slice_whole, Rect.mem_set_unit]
  exact Iff.rfl

theorem mem_blk_msg2 (t : Fin cfg0.N) (i : S1200000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v2_1).slice (win0_3.rect t)).set ↔ _
  rw [View.set_slice_whole, Rect.mem_set_unit]
  exact Iff.rfl

/-- The block that holds row `e` is block `e / 20000`. -/
def blockOf (i : S1200000x64.Idx) : Fin cfg0.N :=
  ⟨(i 0).val / 20000, by
    have hi : (i 0).val < 1200000 := (i 0).isLt
    show (i 0).val / 20000 < grid0.N
    rw [N_0]; omega⟩

/-- The 60 blocks of the first output cover its array. -/
theorem cover_msg1 (i : S1200000x64.Idx) :
    ∃ t : Fin cfg0.N, (cfg0.win 2).flush t = true ∧ i ∈ ((cfg0.win 2).blk t).view.set := by
  have hi0 : (i 0).val < 1200000 := (i 0).isLt
  have hi1 : (i 1).val < 64 := (i 1).isLt
  refine ⟨blockOf i, flush0_2 _, ?_⟩
  rw [mem_blk_msg1]
  obtain ⟨-, -, -, -, e20, e21, -, -⟩ := block_index (blockOf i)
  have hb : (blockOf i).val = (i 0).val / 20000 := rfl
  intro a
  match a with
  | ⟨0, _⟩ => show win0_2.index (blockOf i) (0 : Fin 2) * 20000 ≤ (i 0).val ∧ (i 0).val < win0_2.index (blockOf i) (0 : Fin 2) * 20000 + 20000; omega
  | ⟨1, _⟩ => show win0_2.index (blockOf i) (1 : Fin 2) * 64 ≤ (i 1).val ∧ (i 1).val < win0_2.index (blockOf i) (1 : Fin 2) * 64 + 64; omega

/-- The 60 blocks of the second output cover its array. -/
theorem cover_msg2 (i : S1200000x64.Idx) :
    ∃ t : Fin cfg0.N, (cfg0.win 3).flush t = true ∧ i ∈ ((cfg0.win 3).blk t).view.set := by
  have hi0 : (i 0).val < 1200000 := (i 0).isLt
  have hi1 : (i 1).val < 64 := (i 1).isLt
  refine ⟨blockOf i, flush0_3 _, ?_⟩
  rw [mem_blk_msg2]
  obtain ⟨-, -, -, -, -, -, e30, e31⟩ := block_index (blockOf i)
  have hb : (blockOf i).val = (i 0).val / 20000 := rfl
  intro a
  match a with
  | ⟨0, _⟩ => show win0_3.index (blockOf i) (0 : Fin 2) * 20000 ≤ (i 0).val ∧ (i 0).val < win0_3.index (blockOf i) (0 : Fin 2) * 20000 + 20000; omega
  | ⟨1, _⟩ => show win0_3.index (blockOf i) (1 : Fin 2) * 64 ≤ (i 1).val ∧ (i 1).val < win0_3.index (blockOf i) (1 : Fin 2) * 64 + 64; omega

/-- After the launch the first output array is `msg1` of the two input arrays as the launch found them. -/
theorem final_msg1 (c : Dev nD) : (dat0 V c).arrAt 2 cfg0.N = msg1 (V c main_v0) (V c main_v1) :=
  (dat0 V c).arrAt_eq_of_cover 2 (msg1 (V c main_v0) (V c main_v1)) (fun t _ => flushed_msg1 V c t) cover_msg1

/-- After the launch the second output array is `msg2` of the two input arrays as the launch found them. -/
theorem final_msg2 (c : Dev nD) : (dat0 V c).arrAt 3 cfg0.N = msg2 (V c main_v0) (V c main_v1) :=
  (dat0 V c).arrAt_eq_of_cover 3 (msg2 (V c main_v0) (V c main_v1)) (fun t _ => flushed_msg2 V c t) cover_msg2

end Cert.KernelIdeal.EdgeStage

end
-- ==== Proof.DenseStage.lean ====
/-
  The per-node stage. The second launch walks the 100,000 nodes in 20 blocks of 5,000 rows. At each block it reads
  the blocks of the two aggregated arrays `a1`, `a2` and of the features `x` (5,000 × 64 each), and the whole weight
  matrices `W1`, `W2` (64 × 64) and bias rows `b1`, `b2` (64), and writes one block,
      ((a1 + x) · W1 + b1) + (a2 · W2 + b2),
  each product a matrix product into a zero accumulator. Over the extended reals a matrix product into zero is the plain
  sum over the 64 contracted entries, so after the launch the result array is, entry by entry,
      out (n, f) = ((∑ k, (a1 (n, k) + x (n, k)) · W1 (k, f)) + b1 f) + ((∑ k, a2 (n, k) · W2 (k, f)) + b2 f).
  No rearrangement of sums is made: the reference computes the same four sums in the same grouping.
-/
import proofs.«423488_j24550033064401_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseStage

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One matrix product of a block, entry by entry -/

theorem lhs_axis0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_axis0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_axis1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(r, k)` of a block's left factor. -/
abbrev lrow (j : S5000x64.Idx) (k : Fin 64) : S5000x64.Idx := fun a => match a with
  | ⟨0, _⟩ => ⟨(j 0).val, (j 0).isLt⟩
  | ⟨1, _⟩ => ⟨k.val, k.isLt⟩
/-- Entry `(k, f)` of a weight matrix. -/
abbrev wcolumn (j : S5000x64.Idx) (k : Fin 64) : S64x64.Idx := fun a => match a with
  | ⟨0, _⟩ => ⟨k.val, k.isLt⟩
  | ⟨1, _⟩ => ⟨(j 1).val, (j 1).isLt⟩

/-- A block's matrix product into the zero accumulator, at entry `j = (r, f)`: the sum over the 64 contracted entries. -/
theorem product_at (x : FVec Ideal S5000x64 .f32) (w : FVec Ideal S64x64 .f32) (j : S5000x64.Idx) :
    matmul dot_S5000x64_S64x64_S5000x64_1_0_0_1_n_n none x w (constant (F := Ideal) S5000x64 .f32 0x00000000#32) j
      = ∑ k : Fin 64, x (lrow j k) * w (wcolumn j k) := by
  show FloatOps.matmul dot_S5000x64_S64x64_S5000x64_1_0_0_1_n_n none x w (constant (F := Ideal) S5000x64 .f32 0x00000000#32) j = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = lrow j k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx j ((ValueIdx.contrEquiv1 dot_S5000x64_S64x64_S5000x64_1_0_0_1_n_n 64 rfl rfl).symm k) = wcolumn j k := funext fun a => Fin.ext (by
    match a with
    | ⟨0, _⟩ => exact (rhs_axis0 _ _).trans hk
    | ⟨1, _⟩ => exact rhs_axis1 _ _)
  rw [el, er]

/-! ## A bias row under a block -/

/-- Entry `f` of a bias row. -/
abbrev bcolumn (j : S5000x64.Idx) : S64.Idx := fun a => match a with
  | ⟨0, _⟩ => ⟨(j 1).val, (j 1).isLt⟩

/-- A bias row, made a one-row matrix and spread over the 5,000 rows, reads at `(r, f)` its entry `f`. -/
theorem bias_at (b : FVec Ideal S64 .f32) (j : S5000x64.Idx) :
    broadcastTo S5000x64 (shapeCast S1x64 b shapeCasts_S64_S1x64) broadcasts_S1x64_S5000x64 j = b (bcolumn j) := by
  obtain ⟨r, f, rfl⟩ : ∃ (r : Fin 5000) (f : Fin 64), j = ix2 r f := ⟨j 0, j 1, eq_ix2 j⟩
  rw [broadcastTo_1b_ab_apply, shapeCast_a_1a_apply]
  exact congrArg b (funext fun a => match a with | ⟨0, _⟩ => rfl)

/-! ## The store's value -/

/-- The block the body stores, entry by entry, from the seven loaded blocks. -/
theorem pay_out (x0 x1 x2 : Vec Ideal S5000x64 .f32) (w1 : Vec Ideal S64x64 .f32) (b1 : Vec Ideal S64 .f32)
    (w2 : Vec Ideal S64x64 .f32) (b2 : Vec Ideal S64 .f32) (j : S5000x64.Idx) :
    k1_pay1 (F := Ideal) x0 x1 w1 b1 x2 w2 b2 j
      = ((∑ k : Fin 64, (x0 (lrow j k) + x1 (lrow j k)) * w1 (wcolumn j k)) + b1 (bcolumn j))
        + ((∑ k : Fin 64, x2 (lrow j k) * w2 (wcolumn j k)) + b2 (bcolumn j)) := by
  unfold k1_pay1
  rw [shapeCast_self, shapeCast_self]
  rw [addf_apply, addf_apply, addf_apply, product_at, product_at, bias_at, bias_at]
  rfl

theorem pay_out_fn (x0 x1 x2 : Vec Ideal S5000x64 .f32) (w1 : Vec Ideal S64x64 .f32) (b1 : Vec Ideal S64 .f32)
    (w2 : Vec Ideal S64x64 .f32) (b2 : Vec Ideal S64 .f32) :
    k1_pay1 (F := Ideal) x0 x1 w1 b1 x2 w2 b2
      = fun j => ((∑ k : Fin 64, (x0 (lrow j k) + x1 (lrow j k)) * w1 (wcolumn j k)) + b1 (bcolumn j))
        + ((∑ k : Fin 64, x2 (lrow j k) * w2 (wcolumn j k)) + b2 (bcolumn j)) :=
  funext (pay_out x0 x1 x2 w1 b1 w2 b2)

/-! ## From the 20 blocks to the array -/

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- Entry `(n, k)` of a node array. -/
abbrev nrow (i : S100000x64.Idx) (k : Fin 64) : S100000x64.Idx := fun a => match a with
  | ⟨0, _⟩ => ⟨(i 0).val, (i 0).isLt⟩
  | ⟨1, _⟩ => ⟨k.val, k.isLt⟩
/-- Entry `(k, f)` of a weight matrix, `f` the column of the node array's entry. -/
abbrev ncolumn (i : S100000x64.Idx) (k : Fin 64) : S64x64.Idx := fun a => match a with
  | ⟨0, _⟩ => ⟨k.val, k.isLt⟩
  | ⟨1, _⟩ => ⟨(i 1).val, (i 1).isLt⟩
/-- Entry `f` of a bias row. -/
abbrev nbias (i : S100000x64.Idx) : S64.Idx := fun a => match a with
  | ⟨0, _⟩ => ⟨(i 1).val, (i 1).isLt⟩

/-- The dense combine of two aggregated arrays with the features: two matrix products with their biases, added. -/
def dense (a1 x a2 : FVec Ideal S100000x64 .f32) (w1 : FVec Ideal S64x64 .f32) (b1 : FVec Ideal S64 .f32)
    (w2 : FVec Ideal S64x64 .f32) (b2 : FVec Ideal S64 .f32) : FVec Ideal S100000x64 .f32 :=
  fun i => ((∑ k : Fin 64, (a1 (nrow i k) + x (nrow i k)) * w1 (ncolumn i k)) + b1 (nbias i))
    + ((∑ k : Fin 64, a2 (nrow i k) * w2 (ncolumn i k)) + b2 (nbias i))

/-- The seven arrays as the launch finds them, at their literal types. -/
abbrev agg1Arr (c : Dev nD) : FVec Ideal S100000x64 .f32 := V c main_v5
abbrev featArr (c : Dev nD) : FVec Ideal S100000x64 .f32 := V c main_arg3
abbrev agg2Arr (c : Dev nD) : FVec Ideal S100000x64 .f32 := V c main_v8
abbrev w1Arr (c : Dev nD) : FVec Ideal S64x64 .f32 := V c main_arg4
abbrev b1Arr (c : Dev nD) : FVec Ideal S64 .f32 := V c main_arg5
abbrev w2Arr (c : Dev nD) : FVec Ideal S64x64 .f32 := V c main_arg6
abbrev b2Arr (c : Dev nD) : FVec Ideal S64 .f32 := V c main_arg7

/-- The eight index maps over the 20 blocks: the three node-array inputs and the output take block row `t`; the
    weight matrices and bias rows are one block, fetched whole. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- What point `t` writes back through the output window is block `t` of the dense combine of the arrays the launch found. -/
theorem flushed_out (c : Dev nD) (t : Fin cfg1.N) :
    (dat1 V c).flushed 7 t = ((cfg1.win 7).blk t).view.read (Elt Ideal)
      (dense (V c main_v5) (V c main_arg3) (V c main_v8) (V c main_arg4) (V c main_arg5) (V c main_arg6) (V c main_arg7)) := by
  show (cfg1.win 7).cut (grid1.coords t) ((dat1 V c).after 7 t) = _
  rw [after1_7]
  unfold out1_7
  rw [View.canon_unit_zero zero_off2]
  simp only [View.ld_unit_zero (S := S5000x64) zero_off2, View.ld_unit_zero (S := S64x64) zero_off2, View.ld_unit_zero (S := S64) zero_off1]
  rw [pay_out_fn]
  obtain ⟨e00, e01, e10, e11, e20, e21, e30, e31, e40, e50, e51, e60, e70, e71⟩ := block_index t
  funext j
  show ((∑ k : Fin 64, (agg1Arr V c (((cfg1.win 0).blk t).view.emb (lrow j k)) + featArr V c (((cfg1.win 1).blk t).view.emb (lrow j k)))
            * w1Arr V c (((cfg1.win 3).blk t).view.emb (wcolumn j k)))
          + b1Arr V c (((cfg1.win 4).blk t).view.emb (bcolumn j)))
        + ((∑ k : Fin 64, agg2Arr V c (((cfg1.win 2).blk t).view.emb (lrow j k)) * w2Arr V c (((cfg1.win 5).blk t).view.emb (wcolumn j k)))
          + b2Arr V c (((cfg1.win 6).blk t).view.emb (bcolumn j)))
      = ((∑ k : Fin 64, (agg1Arr V c (nrow (((cfg1.win 7).blk t).view.emb j) k) + featArr V c (nrow (((cfg1.win 7).blk t).view.emb j) k))
            * w1Arr V c (ncolumn (((cfg1.win 7).blk t).view.emb j) k))
          + b1Arr V c (nbias (((cfg1.win 7).blk t).view.emb j)))
        + ((∑ k : Fin 64, agg2Arr V c (nrow (((cfg1.win 7).blk t).view.emb j) k) * w2Arr V c (ncolumn (((cfg1.win 7).blk t).view.emb j) k))
          + b2Arr V c (nbias (((cfg1.win 7).blk t).view.emb j)))
  have hn0 : ∀ k : Fin 64, ((cfg1.win 0).blk t).view.emb (lrow j k) = nrow (((cfg1.win 7).blk t).view.emb j) k := fun k => by
    funext a; apply Fin.ext
    match a with
    | ⟨0, _⟩ => show win1_0.index t (0 : Fin 2) * 5000 + 1 * (j 0).val = win1_7.index t (0 : Fin 2) * 5000 + 1 * (j 0).val; omega
    | ⟨1, _⟩ => show win1_0.index t (1 : Fin 2) * 64 + 1 * k.val = k.val; omega
  have hn1 : ∀ k : Fin 64, ((cfg1.win 1).blk t).view.emb (lrow j k) = nrow (((cfg1.win 7).blk t).view.emb j) k := fun k => by
    funext a; apply Fin.ext
    match a with
    | ⟨0, _⟩ => show win1_1.index t (0 : Fin 2) * 5000 + 1 * (j 0).val = win1_7.index t (0 : Fin 2) * 5000 + 1 * (j 0).val; omega
    | ⟨1, _⟩ => show win1_1.index t (1 : Fin 2) * 64 + 1 * k.val = k.val; omega
  have hn2 : ∀ k : Fin 64, ((cfg1.win 2).blk t).view.emb (lrow j k) = nrow (((cfg1.win 7).blk t).view.emb j) k := fun k => by
    funext a; apply Fin.ext
    match a with
    | ⟨0, _⟩ => show win1_2.index t (0 : Fin 2) * 5000 + 1 * (j 0).val = win1_7.index t (0 : Fin 2) * 5000 + 1 * (j 0).val; omega
    | ⟨1, _⟩ => show win1_2.index t (1 : Fin 2) * 64 + 1 * k.val = k.val; omega
  have hw3 : ∀ k : Fin 64, ((cfg1.win 3).blk t).view.emb (wcolumn j k) = ncolumn (((cfg1.win 7).blk t).view.emb j) k := fun k => by
    funext a; apply Fin.ext
    match a with
    | ⟨0, _⟩ => show win1_3.index t (0 : Fin 2) * 64 + 1 * k.val = k.val; omega
    | ⟨1, _⟩ => show win1_3.index t (1 : Fin 2) * 64 + 1 * (j 1).val = win1_7.index t (1 : Fin 2) * 64 + 1 * (j 1).val; omega
  have hw5 : ∀ k : Fin 64, ((cfg1.win 5).blk t).view.emb (wcolumn j k) = ncolumn (((cfg1.win 7).blk t).view.emb j) k := fun k => by
    funext a; apply Fin.ext
    match a with
    | ⟨0, _⟩ => show win1_5.index t (0 : Fin 2) * 64 + 1 * k.val = k.val; omega
    | ⟨1, _⟩ => show win1_5.index t (1 : Fin 2) * 64 + 1 * (j 1).val = win1_7.index t (1 : Fin 2) * 64 + 1 * (j 1).val; omega
  have hb4 : ((cfg1.win 4).blk t).view.emb (bcolumn j) = nbias (((cfg1.win 7).blk t).view.emb j) := by
    funext a; apply Fin.ext
    match a with
    | ⟨0, _⟩ => show win1_4.index t (0 : Fin 1) * 64 + 1 * (j 1).val = win1_7.index t (1 : Fin 2) * 64 + 1 * (j 1).val; omega
  have hb6 : ((cfg1.win 6).blk t).view.emb (bcolumn j) = nbias (((cfg1.win 7).blk t).view.emb j) := by
    funext a; apply Fin.ext
    match a with
    | ⟨0, _⟩ => show win1_6.index t (0 : Fin 1) * 64 + 1 * (j 1).val = win1_7.index t (1 : Fin 2) * 64 + 1 * (j 1).val; omega
  simp only [hn0, hn1, hn2, hw3, hw5, hb4, hb6]

/-- An index of the result array lies in point `t`'s block exactly when each coordinate lies in the block's range. -/
theorem mem_blk_out (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v9).slice (win1_7.rect t)).set ↔ _
  rw [View.set_slice_whole, Rect.mem_set_unit]
  exact Iff.rfl

/-- The block that holds node `n` is block `n / 5000`. -/
def blockOf (i : S100000x64.Idx) : Fin cfg1.N :=
  ⟨(i 0).val / 5000, by
    have hi : (i 0).val < 100000 := (i 0).isLt
    show (i 0).val / 5000 < grid1.N
    rw [N_1]; omega⟩

/-- The 20 blocks of the output cover its array. -/
theorem cover_out (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  refine ⟨blockOf i, flush1_7 _, ?_⟩
  rw [mem_blk_out]
  obtain ⟨-, -, -, -, -, -, -, -, -, -, -, -, e70, e71⟩ := block_index (blockOf i)
  have hb : (blockOf i).val = (i 0).val / 5000 := rfl
  intro a
  match a with
  | ⟨0, _⟩ => show win1_7.index (blockOf i) (0 : Fin 2) * 5000 ≤ (i 0).val ∧ (i 0).val < win1_7.index (blockOf i) (0 : Fin 2) * 5000 + 5000; omega
  | ⟨1, _⟩ => show win1_7.index (blockOf i) (1 : Fin 2) * 64 ≤ (i 1).val ∧ (i 1).val < win1_7.index (blockOf i) (1 : Fin 2) * 64 + 64; omega

/-- After the launch the result array is the dense combine of the seven arrays as the launch found them. -/
theorem final_out (c : Dev nD) : (dat1 V c).arrAt 7 cfg1.N
    = dense (V c main_v5) (V c main_arg3) (V c main_v8) (V c main_arg4) (V c main_arg5) (V c main_arg6) (V c main_arg7) :=
  (dat1 V c).arrAt_eq_of_cover 7 _ (fun t _ => flushed_out V c t) cover_out

end Cert.KernelIdeal.DenseStage

end
-- ==== Proof.LibMaskOnes.lean ====
/-
  Small facts about masks of ones, and the range of a wrapped index.
  * An `and`-fold that starts at 1 and meets only 1s is 1; so an `and`-reduce of an array of 1s from the initial 1 is 1,
    and so is any broadcast of it.
  * A `select` under a mask of 1s is its first branch.
  * A signed 32-bit index `c` with `-100000 ≤ c < 100000`, wrapped as numpy wraps a negative index into an axis of
    100000 (`c + 100000` when `c < 0`, else `c`), lies in `[0, 99999]`: no 32-bit overflow can occur this near zero.
-/
import Idealize.ShloMosaic.Lib.Affine
import Idealize.ShloMosaic.Lib.ValueIdx
import Idealize.ShloMosaic.Lib.ReduceAll

namespace Idealize.ShloMosaic.MaskOnes

open Idealize.ShloMosaic

/-- An `and`-fold over 1s from 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    have e : IntOp.andi (1#1 : BitVec 1) 1#1 = 1#1 := by decide
    rw [e]
    exact foldl_andi_ones f hf l

/-- An `and`-reduce of an array of 1s, from an initial 1, is 1 everywhere. -/
theorem reduce_andi_ones {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1)
    (j : t.Idx) : Host.reduce IntOp.andi x init h hu j = 1#1 := by
  rw [Host.reduce_eq_foldl, hinit]
  exact foldl_andi_ones x hx _

/-- A broadcast of an array of 1s is 1 everywhere. -/
theorem broadcastInDim_ones {s t : Shape} (dims : Fin s.rank → Fin t.rank) (h : s.BroadcastsInDim t dims)
    (x : s.Idx → BitVec 1) (hx : ∀ k, x k = 1#1) (j : t.Idx) : broadcastInDim t dims h x j = 1#1 := by
  unfold broadcastInDim
  exact hx _

/-- Under a mask of 1s a `select` is its first branch. -/
theorem select_of_ones {s : Shape} {α : Type} (mask : IVec s 1) (a b : s.Idx → α) (h : ∀ i, mask i = 1#1) :
    select mask a b = a :=
  funext fun i => by rw [ValueIdx.select_apply, h i, ValueIdx.select_one]

/-- A column index in `[-100000, 100000)`, wrapped into an axis of 100000, lies in `[0, 99999]`. -/
theorem wrap_range (c : BitVec 32) (h : (-100000 : Int) ≤ c.toInt ∧ c.toInt < 100000) :
    (0 : Int) ≤ (Scalar.select (IntOp.cmpi .slt c 0#32) (IntOp.addi c 100000#32) c).toInt
      ∧ (Scalar.select (IntOp.cmpi .slt c 0#32) (IntOp.addi c 100000#32) c).toInt ≤ 99999 := by
  have z : (0#32 : BitVec 32).toInt = 0 := by decide
  have y : (100000#32 : BitVec 32).toInt = 100000 := by decide
  unfold Scalar.select
  by_cases hn : IntOp.cmpi .slt c 0#32 = 1
  · rw [if_pos hn]
    have hlt : c.toInt < (0#32 : BitVec 32).toInt := IntOp.cmpi_slt.1 hn
    show 0 ≤ (c + 100000#32).toInt ∧ (c + 100000#32).toInt ≤ 99999
    rw [BitVec.toInt_add, y, Int.bmod_def]
    have p : ((2 ^ 32 : Nat) : Int) = 4294967296 := by norm_num
    rw [p]
    omega
  · rw [if_neg hn]
    have hge : ¬ c.toInt < (0#32 : BitVec 32).toInt := fun hh => hn (IntOp.cmpi_slt.2 hh)
    omega

end Idealize.ShloMosaic.MaskOnes
-- ==== Proof.KernelWhole.lean ====
/-
  The kernel's result as one function of its eight arguments.
  Reading the run's boundaries backwards: the result array is what the per-node launch leaves, the dense combine of two
  aggregated arrays with the features; each aggregated array is the scatter-add, by the row indices, of a message array
  into zeros; each message array is what the per-edge launch leaves, `v · g` or `v · (g · g)`, of the edge weights `v`
  (the weights reshaped to a column) and the taken feature rows `g`; and the taken rows are the gather of the features at
  the wrapped column indices, with every row whose wrapped index falls outside `[0, 99999]` replaced by a fill value.
  Under the column range of the precondition no wrapped index falls outside, so the taken rows are the plain gather.
-/
import proofs.«423488_j24550033064401_1_alg».proof.Proof.KernelRun
import proofs.«423488_j24550033064401_1_alg».proof.Proof.EdgeStage
import proofs.«423488_j24550033064401_1_alg».proof.Proof.DenseStage
import proofs.«423488_j24550033064401_1_alg».proof.Proof.LibMaskOnes
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem Idealize.ShloMosaic.StableHlo
open Idealize.ShloMosaic.MaskOnes

/-! ## The taken rows -/

section Take
variable {F : FTy → Type} [FloatOps F]

/-- The start indices of the gather: each column index wrapped (`c + 100000` when negative), as a column. -/
def startIdx (cols : IVec S1200000 32) : IVec S1200000x1 32 :=
  broadcastInDim S1200000x1 ![0] bcast_S1200000_S1200000x1_0
    (select (cmpi .slt cols (broadcastInDim S1200000 ![] bcast_S_S1200000 (constantI S_ 32 0#32)))
      (addi cols (broadcastInDim S1200000 ![] bcast_S_S1200000 (constantI S_ 32 100000#32))) cols)

/-- The in-range test of the taken rows: 1 where the wrapped index lies in `[0, 99999]`, spread along the 64 features. -/
def inRange (cols : IVec S1200000 32) : IVec S1200000x64 1 :=
  broadcastInDim S1200000x64 ![0] bcast_S1200000_S1200000x64_0
    (Host.reduce IntOp.andi
      (andi (cmpi .sge (startIdx cols) (broadcastInDim S1200000x1 ![] bcast_S_S1200000x1 (constantI S_ 32 0#32)))
        (cmpi .sle (startIdx cols) (broadcastInDim S1200000x1 ![0, 1] bcast_S1x1_S1200000x1_0_1
          (broadcastInDim S1x1 ![1] bcast_S1_S1x1_1 (constantI S1 32 99999#32)))))
      (constantI S_ 1 1#1) reducesTo_S1200000x1_S1200000_d1 h_S_)

/-- The taken rows: the gathered row where the test holds, the fill value elsewhere. -/
def taken (cols : IVec S1200000 32) (feat : FVec F S100000x64 .f32) : FVec F S1200000x64 .f32 :=
  select (inRange cols)
    (Host.gather gather_S100000x64_S1200000x1_S1200000x64_1_0_n_n_0_1_164 feat (startIdx cols))
    (broadcastInDim S1200000x64 ![] bcast_S_S1200000x64 (constant S_ .f32 0x7FC00000#32))

/-- Every wrapped index lies in `[0, 99999]` when every column index lies in `[-100000, 100000)`. -/
theorem startIdx_range (cols : IVec S1200000 32)
    (hc : ∀ e : S1200000.Idx, (-100000 : Int) ≤ (cols e).toInt ∧ (cols e).toInt < 100000) (q : S1200000x1.Idx) :
    (0 : Int) ≤ (startIdx cols q).toInt ∧ (startIdx cols q).toInt ≤ 99999 := by
  unfold startIdx broadcastInDim
  exact wrap_range _ (hc _)

/-- Then the test holds everywhere, and the taken rows are the plain gather. -/
theorem taken_eq_gather (cols : IVec S1200000 32)
    (hc : ∀ e : S1200000.Idx, (-100000 : Int) ≤ (cols e).toInt ∧ (cols e).toInt < 100000) (feat : FVec F S100000x64 .f32) :
    taken cols feat = Host.gather gather_S100000x64_S1200000x1_S1200000x64_1_0_n_n_0_1_164 feat (startIdx cols) := by
  unfold taken
  refine select_of_ones _ _ _ fun i => ?_
  unfold inRange
  refine broadcastInDim_ones _ _ _ (fun k => reduce_andi_ones _ (fun q => ?_) _ _ _ rfl k) i
  obtain ⟨lo, hi⟩ := startIdx_range cols hc q
  have z : (0#32 : BitVec 32).toInt = 0 := by decide
  have y : (99999#32 : BitVec 32).toInt = 99999 := by decide
  refine IntOp.andi_eq_one.2 ⟨IntOp.cmpi_sge.2 ?_, IntOp.cmpi_sle.2 ?_⟩
  · show (0#32 : BitVec 32).toInt ≤ (startIdx cols q).toInt
    omega
  · show (startIdx cols q).toInt ≤ (99999#32 : BitVec 32).toInt
    omega

end Take

/-! ## The boundaries of the run, read at the buffers the launches use -/

/-- Contents carried to a typed reference's buffer and back are the contents: the two transports are along one
    equation of types and its inverse. -/
theorem ofBuf_toBuf {sg : RefSig} {T : BufTy} {Val : EltTy → Type} (x : TRef sg T) (v : T.Contents Val) :
    x.ofBuf (x.toBuf v) = v := by
  obtain ⟨r, rfl, _, _⟩ := x
  rfl

variable (m : (ℓ : Loc nD τ sig) → Buf (Elt Ideal) ℓ) (ρ : Dev nD → PrngReg)

/-- The column indices' buffer, read at launch through its typed reference, is the argument. -/
theorem cols_leaf (c : Dev nD) (h1 : main_arg1.ty = (⟨S1200000, .i32⟩ : BufTy)) (h2 : main_arg1.space ≠ .host)
    (h3 : main_arg1.isScoped = false) :
    (TRef.of main_arg1 h1 h2 h3).ofBuf (W0 m ρ c (Proc.devRef .tc main_arg1)) = m ((c : Thread nD τ).loc main_arg1) := rfl

/-- The features' buffer, read at launch through its typed reference, is the argument. -/
theorem feat_leaf (c : Dev nD) (h1 : main_arg3.ty = (⟨S100000x64, .f32⟩ : BufTy)) (h2 : main_arg3.space ≠ .host)
    (h3 : main_arg3.isScoped = false) :
    (TRef.of main_arg3 h1 h2 h3).ofBuf (W0 m ρ c (Proc.devRef .tc main_arg3)) = m ((c : Thread nD τ).loc main_arg3) := rfl

/-- Contents carried to the gathered-rows buffer are the contents. -/
theorem rows_leaf (h1 : main_v0.ty = (⟨S1200000x64, .f32⟩ : BufTy)) (h2 : main_v0.space ≠ .host)
    (h3 : main_v0.isScoped = false) (v : (⟨S1200000x64, .f32⟩ : BufTy).Contents (Elt Ideal)) :
    (TRef.of main_v0 h1 h2 h3).toBuf v = v := rfl

/-- At the first launch's entry the gathered-rows buffer holds the taken rows of the column indices and the features. -/
theorem entry_rows (c : Dev nD) :
    V2 m ρ c main_v0 = taken (F := Ideal) (m ((c : Thread nD τ).loc main_arg1)) (m ((c : Thread nD τ).loc main_arg3)) := by
  show StableHlo.after hostOps0_1 (StableHlo.after hostOps0 (W0 m ρ c)) (Proc.devRef .tc main_v0) = _
  after_results_simp
  simp only [ofBuf_toBuf, cols_leaf, feat_leaf, rows_leaf]
  rfl

/-- At the first launch's entry the weight-column buffer holds the edge weights reshaped to a column. -/
theorem entry_weights (c : Dev nD) :
    V2 m ρ c main_v1 = shapeCast S1200000x1 (m ((c : Thread nD τ).loc main_arg2)) shapeCasts_S1200000_S1200000x1 := by
  show StableHlo.after hostOps0_1 (StableHlo.after hostOps0 (W0 m ρ c)) (Proc.devRef .tc main_v1) = _
  after_results
  rfl

/-- The row indices' buffer is still the argument after the first launch: nothing before it writes it. -/
theorem rows_kept (c : Dev nD) : W3 m ρ c (Proc.devRef .tc main_arg0) = m ((c : Thread nD τ).loc main_arg0) :=
  (W3_of_ne m ρ c main_arg0 (by decide)).trans (by
    show StableHlo.after hostOps0_1 (StableHlo.after hostOps0 (W0 m ρ c)) (Proc.devRef .tc main_arg0) = _
    after_results_simp <;> rfl)

/-- The first launch leaves `msg1` of its two input arrays in its first output array. -/
theorem exit_msg1 (c : Dev nD) :
    W3 m ρ c (Proc.devRef .tc main_v2_0) = EdgeStage.msg1 (V2 m ρ c main_v0) (V2 m ρ c main_v1) :=
  (W3_arr m ρ c 2).trans (EdgeStage.final_msg1 (V2 m ρ) c)

/-- The first launch leaves `msg2` of its two input arrays in its second output array. -/
theorem exit_msg2 (c : Dev nD) :
    W3 m ρ c (Proc.devRef .tc main_v2_1) = EdgeStage.msg2 (V2 m ρ c main_v0) (V2 m ρ c main_v1) :=
  (W3_arr m ρ c 3).trans (EdgeStage.final_msg2 (V2 m ρ) c)

/-- At the second launch's entry the first aggregated array is the scatter-add of `msg1` by the row indices into zeros. -/
theorem entry_agg1 (c : Dev nD) :
    V4 m ρ c main_v5 = Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 (m ((c : Thread nD τ).loc main_arg0)))
      (EdgeStage.msg1 (V2 m ρ c main_v0) (V2 m ρ c main_v1)) := by
  show StableHlo.after hostOps1 (W3 m ρ c) (Proc.devRef .tc main_v5) = _
  after_results
  rw [rows_kept, exit_msg1]

/-- At the second launch's entry the second aggregated array is the scatter-add of `msg2` by the row indices into zeros. -/
theorem entry_agg2 (c : Dev nD) :
    V4 m ρ c main_v8 = Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 (m ((c : Thread nD τ).loc main_arg0)))
      (EdgeStage.msg2 (V2 m ρ c main_v0) (V2 m ρ c main_v1)) := by
  show StableHlo.after hostOps1 (W3 m ρ c) (Proc.devRef .tc main_v8) = _
  after_results
  rw [rows_kept, exit_msg2]

/-- At the second launch's entry the features, weight matrices and bias rows are the arguments: an input array of a
    launch ends the launch as it entered it, and ends the run as launched. -/
theorem entry_feat (c : Dev nD) : V4 m ρ c main_arg3 = m ((c : Thread nD τ).loc main_arg3) :=
  ((W5_arr m ρ c 1).trans (((dat1 (V4 m ρ) c).arrAt_in 1 rfl _).trans (A_eq1 (V4 m ρ) c 1))).symm.trans (W5_main_arg3 m ρ c)
theorem entry_w1 (c : Dev nD) : V4 m ρ c main_arg4 = m ((c : Thread nD τ).loc main_arg4) :=
  ((W5_arr m ρ c 3).trans (((dat1 (V4 m ρ) c).arrAt_in 3 rfl _).trans (A_eq1 (V4 m ρ) c 3))).symm.trans (W5_main_arg4 m ρ c)
theorem entry_b1 (c : Dev nD) : V4 m ρ c main_arg5 = m ((c : Thread nD τ).loc main_arg5) :=
  ((W5_arr m ρ c 4).trans (((dat1 (V4 m ρ) c).arrAt_in 4 rfl _).trans (A_eq1 (V4 m ρ) c 4))).symm.trans (W5_main_arg5 m ρ c)
theorem entry_w2 (c : Dev nD) : V4 m ρ c main_arg6 = m ((c : Thread nD τ).loc main_arg6) :=
  ((W5_arr m ρ c 5).trans (((dat1 (V4 m ρ) c).arrAt_in 5 rfl _).trans (A_eq1 (V4 m ρ) c 5))).symm.trans (W5_main_arg6 m ρ c)
theorem entry_b2 (c : Dev nD) : V4 m ρ c main_arg7 = m ((c : Thread nD τ).loc main_arg7) :=
  ((W5_arr m ρ c 6).trans (((dat1 (V4 m ρ) c).arrAt_in 6 rfl _).trans (A_eq1 (V4 m ρ) c 6))).symm.trans (W5_main_arg7 m ρ c)

/-- The second launch leaves the dense combine of its seven input arrays in the result array. -/
theorem exit_out (c : Dev nD) :
    W5 m ρ c (Proc.devRef .tc main_v9) = DenseStage.dense (V4 m ρ c main_v5) (V4 m ρ c main_arg3) (V4 m ρ c main_v8)
      (V4 m ρ c main_arg4) (V4 m ρ c main_arg5) (V4 m ρ c main_arg6) (V4 m ρ c main_arg7) :=
  (W5_arr m ρ c 7).trans (DenseStage.final_out (V4 m ρ) c)

/-! ## The result as one function of the arguments -/

/-- The kernel's result from its eight arguments: the dense combine of the two scatter-added message arrays with the
    features, the messages made of the reshaped weights and the taken rows. -/
def value (rows cols : IVec S1200000 32) (vals : FVec Ideal S1200000 .f32) (feat : FVec Ideal S100000x64 .f32)
    (w1 : FVec Ideal S64x64 .f32) (b1 : FVec Ideal S64 .f32) (w2 : FVec Ideal S64x64 .f32) (b2 : FVec Ideal S64 .f32) :
    FVec Ideal S100000x64 .f32 :=
  DenseStage.dense
    (Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 rows)
      (EdgeStage.msg1 (F := Ideal) (taken (F := Ideal) cols feat) (shapeCast S1200000x1 vals shapeCasts_S1200000_S1200000x1)))
    feat
    (Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 rows)
      (EdgeStage.msg2 (F := Ideal) (taken (F := Ideal) cols feat) (shapeCast S1200000x1 vals shapeCasts_S1200000_S1200000x1)))
    w1 b1 w2 b2

/-- The result array at the end of the run is `value` of the launch contents of the eight arguments. -/
theorem result_eq (c : Dev nD) :
    W5 m ρ c (Proc.devRef .tc main_v9) = value (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [exit_out, entry_agg1, entry_agg2, entry_feat, entry_w1, entry_b1, entry_w2, entry_b2, entry_rows, entry_weights]
  rfl

/-- Every weakly fair execution of the kernel's program terminates without a fault with the result array at `value`
    of the arguments and the arguments unchanged. -/
theorem run_value : θ_run defs (onTc (τ := τ) (main (F := Ideal))) ⟨m, fun _ => 0, ρ⟩ (fun r => ∀ c : Dev nD,
      r.2.mem ((c.tc : Thread nD τ).loc main_v9) = value (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (RunValue.run m ρ)

end Cert.KernelIdeal.Whole

end
-- ==== Proof.ReferenceMessages.lean ====
/-
  The reference's message arrays and aggregated arrays are the kernel's.
  The reference gathers feature rows at the wrapped column indices (an out-of-range index clamped), multiplies by the edge
  weights spread along the features, and scatter-adds by the row indices into zeros. Against the kernel:
  * the kernel's taken rows are the same gather once no wrapped index is out of range (the column range);
  * a gather reads one operand entry per result entry, so the gathered array of squares is the square of the gathered entries;
  * the weights reshaped to a column, or broadcast to a column, are the same column;
  * the scatter-adds are one operation applied to equal message arrays, so they are equal without being opened.
-/
import proofs.«423488_j24550033064401_1_alg».proof.Proof.Gen.ReferenceIdeal.Read
import proofs.«423488_j24550033064401_1_alg».proof.Proof.KernelWhole

set_option maxRecDepth 16384

noncomputable section

namespace Cert.ReferenceIdeal.Messages

open Cert.ReferenceIdeal Cert.ReferenceIdeal.Gen Cert.ReferenceIdeal.Read
open Idealize.ShloMosaic Idealize.ShloMosaic.TcCoe
open Cert.KernelIdeal.Whole (taken startIdx taken_eq_gather)
open Cert.KernelIdeal.EdgeStage (msg1 msg2 wcol)
open Cert.KernelIdeal.Facts₀ (shapeCasts_S1200000_S1200000x1)

/-- The two programs print one gather, and one scatter-add, under two names. -/
theorem gather_record : gather_S100000x64_S1200000x1_S1200000x64_1_0_n_n_0_1_164 = Cert.KernelIdeal.gather_S100000x64_S1200000x1_S1200000x64_1_0_n_n_0_1_164 := rfl
theorem scatter_record : scatter_S100000x64_S1200000x1_S1200000x64_1_0_0_1 = Cert.KernelIdeal.scatter_S100000x64_S1200000x1_S1200000x64_1_0_0_1 := rfl

/-- A gather reads one operand entry per result entry: of an entrywise square it reads the square of the entry. -/
theorem gather_square {F : FTy → Type} [FloatOps F] {s si t : Shape} {w : Nat} (d : GatherDims s si t)
    (x : FVec F s .f32) (idx : IVec si w) (i : t.Idx) :
    Host.gather d (mulf x x) idx i = FloatOps.mulf (Host.gather d x idx i) (Host.gather d x idx i) := rfl

variable (x0 x1 : IVec S1200000 32) (x2 : FVec Ideal S1200000 .f32) (x3 : FVec Ideal S100000x64 .f32)

/-- The reshaped weight column and the broadcast weight column hold the same entry in row `e`. -/
theorem weight_column (i : S1200000x64.Idx) :
    shapeCast Cert.KernelIdeal.S1200000x1 x2 shapeCasts_S1200000_S1200000x1 (wcol i)
      = x2 (idx_main_v0 (idx_main_v8 i)) :=
  shapeCast_apply x2 _ (wcol i) (idx_main_v0 (idx_main_v8 i)) (by
    rw [Shape.rowMajor_val_one, Shape.rowMajor_val_two]
    show (i 0).val = (i 0).val * 1 + 0
    omega)

/-- The same for the second use of the weights. -/
theorem weight_column' (i : S1200000x64.Idx) :
    shapeCast Cert.KernelIdeal.S1200000x1 x2 shapeCasts_S1200000_S1200000x1 (wcol i)
      = x2 (idx_main_v15 (idx_main_v23 i)) :=
  shapeCast_apply x2 _ (wcol i) (idx_main_v15 (idx_main_v23 i)) (by
    rw [Shape.rowMajor_val_one, Shape.rowMajor_val_two]
    show (i 0).val = (i 0).val * 1 + 0
    omega)

/-- The reference's gather indices, both times, are the kernel's start indices. -/
theorem gather_index : val_main_v6 (F := Ideal) x1 = startIdx x1 := rfl
theorem gather_index' : val_main_v21 (F := Ideal) x1 = startIdx x1 := rfl

/-- The zeros scattered into, and the row indices as a column, are the kernel's. -/
theorem zeros1 : val_main_v10 (F := Ideal)
    = broadcastInDim Cert.KernelIdeal.S100000x64 ![] Cert.KernelIdeal.Facts₀.bcast_S_S100000x64 (constant (F := Ideal) Cert.KernelIdeal.S_ .f32 0x00000000#32) := rfl
theorem zeros2 : val_main_v25 (F := Ideal)
    = broadcastInDim Cert.KernelIdeal.S100000x64 ![] Cert.KernelIdeal.Facts₀.bcast_S_S100000x64 (constant (F := Ideal) Cert.KernelIdeal.S_ .f32 0x00000000#32) := rfl
theorem rows1 : val_main_v11 (F := Ideal) x0
    = broadcastInDim Cert.KernelIdeal.S1200000x1 ![0] Cert.KernelIdeal.Facts₀.bcast_S1200000_S1200000x1_0 x0 := rfl
theorem rows2 : val_main_v26 (F := Ideal) x0
    = broadcastInDim Cert.KernelIdeal.S1200000x1 ![0] Cert.KernelIdeal.Facts₀.bcast_S1200000_S1200000x1_0 x0 := rfl

variable (hc : ∀ e : S1200000.Idx, (-100000 : Int) ≤ (x1 e).toInt ∧ (x1 e).toInt < 100000)
include hc

/-- The reference's first message array is the kernel's. -/
theorem messages1 : val_main_v9 (F := Ideal) x1 x2 x3
    = msg1 (F := Ideal) (taken (F := Ideal) x1 x3) (shapeCast Cert.KernelIdeal.S1200000x1 x2 shapeCasts_S1200000_S1200000x1) := by
  funext i
  rw [val_main_v9_apply, val_main_v8_apply, val_main_v0_apply, taken_eq_gather x1 hc x3]
  unfold msg1 val_main_v7
  rw [weight_column, gather_index, gather_record]

/-- The reference's second message array is the kernel's. -/
theorem messages2 : val_main_v24 (F := Ideal) x1 x2 x3
    = msg2 (F := Ideal) (taken (F := Ideal) x1 x3) (shapeCast Cert.KernelIdeal.S1200000x1 x2 shapeCasts_S1200000_S1200000x1) := by
  funext i
  rw [val_main_v24_apply, val_main_v23_apply, val_main_v15_apply, taken_eq_gather x1 hc x3]
  unfold msg2 val_main_v22 val_main_v14
  rw [weight_column', gather_index', gather_record, gather_square]

/-- The reference's first aggregated array is the kernel's: one scatter-add applied to equal message arrays. -/
theorem aggregate1 : val_main_v12 (F := Ideal) x0 x1 x2 x3
    = Host.scatterAdd Cert.KernelIdeal.scatter_S100000x64_S1200000x1_S1200000x64_1_0_0_1
        (broadcastInDim Cert.KernelIdeal.S100000x64 ![] Cert.KernelIdeal.Facts₀.bcast_S_S100000x64 (constant (F := Ideal) Cert.KernelIdeal.S_ .f32 0x00000000#32))
        (broadcastInDim Cert.KernelIdeal.S1200000x1 ![0] Cert.KernelIdeal.Facts₀.bcast_S1200000_S1200000x1_0 x0)
        (msg1 (F := Ideal) (taken (F := Ideal) x1 x3) (shapeCast Cert.KernelIdeal.S1200000x1 x2 shapeCasts_S1200000_S1200000x1)) := by
  unfold val_main_v12
  rw [messages1 x1 x2 x3 hc, scatter_record, zeros1, rows1]

/-- The reference's second aggregated array is the kernel's. -/
theorem aggregate2 : val_main_v27 (F := Ideal) x0 x1 x2 x3
    = Host.scatterAdd Cert.KernelIdeal.scatter_S100000x64_S1200000x1_S1200000x64_1_0_0_1
        (broadcastInDim Cert.KernelIdeal.S100000x64 ![] Cert.KernelIdeal.Facts₀.bcast_S_S100000x64 (constant (F := Ideal) Cert.KernelIdeal.S_ .f32 0x00000000#32))
        (broadcastInDim Cert.KernelIdeal.S1200000x1 ![0] Cert.KernelIdeal.Facts₀.bcast_S1200000_S1200000x1_0 x0)
        (msg2 (F := Ideal) (taken (F := Ideal) x1 x3) (shapeCast Cert.KernelIdeal.S1200000x1 x2 shapeCasts_S1200000_S1200000x1)) := by
  unfold val_main_v27
  rw [messages2 x1 x2 x3 hc, scatter_record, zeros2, rows2]

end Cert.ReferenceIdeal.Messages

end
-- ==== Proof.ReferenceWhole.lean ====
/-
  The reference's result is the kernel's function of the arguments.
  Per node the reference adds the features to the first aggregated array, takes the two 64-term matrix products (the host's
  product is, over the extended reals, the plain sum over the contracted entries), adds the biases, and adds the two parts:
  the kernel's dense combine, the same four sums and two biases in the same order, over aggregated arrays already known
  to be the kernel's.
-/
import proofs.«423488_j24550033064401_1_alg».proof.Proof.ReferenceMessages

set_option maxRecDepth 16384

noncomputable section

namespace Cert.ReferenceIdeal.Whole

open Cert.ReferenceIdeal Cert.ReferenceIdeal.Gen Cert.ReferenceIdeal.Read
open Idealize.ShloMosaic Idealize.ShloMosaic.TcCoe
open Cert.KernelIdeal.Whole (value)
open Cert.KernelIdeal.DenseStage (dense nrow ncolumn nbias)
open Cert.ReferenceIdeal.Messages (aggregate1 aggregate2)

/-- The entries the two matrix products and the two biases read, on the reference's side, are the kernel's. -/
theorem left1 (i : S100000x64.Idx) (k : Fin 64) : lidx_main_v28 i k = nrow i k :=
  funext fun a => match a with | ⟨0, _⟩ => rfl | ⟨1, _⟩ => rfl
theorem right1 (i : S100000x64.Idx) (k : Fin 64) : ridx_main_v28 i k = ncolumn i k :=
  funext fun a => match a with | ⟨0, _⟩ => rfl | ⟨1, _⟩ => rfl
theorem left2 (i : S100000x64.Idx) (k : Fin 64) : lidx_main_v32 i k = nrow i k :=
  funext fun a => match a with | ⟨0, _⟩ => rfl | ⟨1, _⟩ => rfl
theorem right2 (i : S100000x64.Idx) (k : Fin 64) : ridx_main_v32 i k = ncolumn i k :=
  funext fun a => match a with | ⟨0, _⟩ => rfl | ⟨1, _⟩ => rfl
theorem bias1 (i : S100000x64.Idx) : idx_main_v29 (idx_main_v30 i) = nbias i :=
  funext fun a => match a with | ⟨0, _⟩ => rfl
theorem bias2 (i : S100000x64.Idx) : idx_main_v33 (idx_main_v34 i) = nbias i :=
  funext fun a => match a with | ⟨0, _⟩ => rfl

/-- The reference's last nine operations, over any two aggregated arrays, are the dense combine: at entry `i` the same
    four sums and two biases, in the same order. -/
theorem tail_eq (a1 a2 x3 : FVec Ideal S100000x64 .f32) (x4 : FVec Ideal S64x64 .f32) (x5 : FVec Ideal S64 .f32)
    (x6 : FVec Ideal S64x64 .f32) (x7 : FVec Ideal S64 .f32) (i : S100000x64.Idx) :
    FloatOps.addf
        (FloatOps.addf (∑ k : Fin 64, (addf a1 x3) (lidx_main_v28 i k) * x4 (ridx_main_v28 i k)) (x5 (idx_main_v29 (idx_main_v30 i))))
        (FloatOps.addf (∑ k : Fin 64, a2 (lidx_main_v32 i k) * x6 (ridx_main_v32 i k)) (x7 (idx_main_v33 (idx_main_v34 i))))
      = dense a1 x3 a2 x4 x5 x6 x7 i := by
  unfold dense
  simp only [left1, right1, left2, right2, bias1, bias2]
  rfl

variable (x0 x1 : IVec S1200000 32) (x2 : FVec Ideal S1200000 .f32) (x3 : FVec Ideal S100000x64 .f32)
  (x4 : FVec Ideal S64x64 .f32) (x5 : FVec Ideal S64 .f32) (x6 : FVec Ideal S64x64 .f32) (x7 : FVec Ideal S64 .f32)

/-- The first product's left factor is the first aggregated array plus the features. -/
theorem sum_with_features : val_main_v13 (F := Ideal) x0 x1 x2 x3 = addf (val_main_v12 (F := Ideal) x0 x1 x2 x3) x3 := rfl

variable (hc : ∀ e : S1200000.Idx, (-100000 : Int) ≤ (x1 e).toInt ∧ (x1 e).toInt < 100000)
include hc

/-- The reference's result is the kernel's function of the eight arguments. -/
theorem reference_eq_value : val_main_v36 (F := Ideal) x0 x1 x2 x3 x4 x5 x6 x7 = value x0 x1 x2 x3 x4 x5 x6 x7 := by
  funext i
  rw [val_main_v36_apply, val_main_v31_apply, val_main_v35_apply, val_main_v28_apply, val_main_v32_apply,
    val_main_v30_apply, val_main_v29_apply, val_main_v34_apply, val_main_v33_apply]
  rw [sum_with_features]
  have h1 := aggregate1 x0 x1 x2 x3 hc
  have h2 := aggregate2 x0 x1 x2 x3 hc
  generalize val_main_v12 (F := Ideal) x0 x1 x2 x3 = a1 at h1 ⊢
  generalize val_main_v27 (F := Ideal) x0 x1 x2 x3 = a2 at h2 ⊢
  refine (tail_eq a1 a2 x3 x4 x5 x6 x7 i).trans ?_
  subst h1 h2
  rfl

end Cert.ReferenceIdeal.Whole

end
-- ==== Proof.lean ====
/-
  A graph layer: for 1,200,000 weighted edges (row, col, weight) over 100,000 nodes with 64 features,
      out = ((A x + x) · W1 + b1) + ((A (x ∘ x)) · W2 + b2),   (A y) (r) = ∑ over edges e with row e = r of weight e · y (col e),
  computed by a kernel in two launches around host gathers and scatter-adds, against a plain reference.
  Over the extended reals the two programs compute one function of their eight arguments:
  * per edge the kernel forms `w · g` and `w · (g · g)` of the gathered row `g`; the reference forms `w · g` of the gathered
    row and `w · g'` of the gathered row of squares, and gathering commutes with squaring entry by entry;
  * both scatter-add these by the same row indices into zeros: equal inputs, one operation;
  * per node both add the features to the first aggregate, take the two 64-term matrix products, add the biases, and add
    the two parts, in the same order; a product into a zero accumulator and the host's product are the same sum.
  Only one thing separates the programs: where a column index, wrapped as a negative index is, falls outside the feature
  table, the kernel's gather fills the row with a fill value and the reference's clamps the index. The precondition
  therefore carries, besides the finiteness of the float arguments, the column indices' range `-100000 ≤ col < 100000`,
  inside which no wrapped index falls outside; the finiteness itself is never used, no law that needs it being applied.
  The three frames are the generated ones (the reference's is its run with the result dropped); the kernel's run is read
  at its result through the run's boundaries; nothing was rewritten by the ideal pass, so `preserves` is trivial.
-/
import proofs.«423488_j24550033064401_1_alg».proof.Defs
import proofs.«423488_j24550033064401_1_alg».proof.Proof.Gen.Kernel
import proofs.«423488_j24550033064401_1_alg».proof.Proof.Gen.Kernel.Skeleton
import proofs.«423488_j24550033064401_1_alg».proof.Proof.Gen.Kernel.Launch
import proofs.«423488_j24550033064401_1_alg».proof.Proof.Gen.Kernel.Points
import proofs.«423488_j24550033064401_1_alg».proof.Proof.Gen.Kernel.Frame
import proofs.«423488_j24550033064401_1_alg».proof.Proof.Gen.KernelIdeal
import proofs.«423488_j24550033064401_1_alg».proof.Proof.Gen.KernelIdeal.Skeleton
import proofs.«423488_j24550033064401_1_alg».proof.Proof.Gen.KernelIdeal.Launch
import proofs.«423488_j24550033064401_1_alg».proof.Proof.Gen.KernelIdeal.Points
import proofs.«423488_j24550033064401_1_alg».proof.Proof.Gen.KernelIdeal.Frame
import proofs.«423488_j24550033064401_1_alg».proof.Proof.Gen.ReferenceIdeal
import proofs.«423488_j24550033064401_1_alg».proof.Proof.Gen.ReferenceIdeal.Run
import proofs.«423488_j24550033064401_1_alg».proof.Proof.Gen.ReferenceIdeal.Read
import proofs.«423488_j24550033064401_1_alg».proof.Proof.Gen.Pre_finite_inputs
import proofs.«423488_j24550033064401_1_alg».proof.Proof.ColumnRange
import proofs.«423488_j24550033064401_1_alg».proof.Proof.KernelWhole
import proofs.«423488_j24550033064401_1_alg».proof.Proof.ReferenceWhole
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both idealized programs end with the same
    result: the kernel's at its function `value` of the arguments, the reference's at its own term, which under the column
    range of the precondition is that function of the same arguments. -/
theorem algebraic : Cert.algebraic_KernelIdeal_ReferenceIdeal := by
  intro m ρ m' ρ' hpre hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7, Cert.ReferenceIdeal.Read.val_main_v36_eq]
  exact Cert.ReferenceIdeal.Whole.reference_eq_value _ _ _ _ _ _ _ _
    (fun e => Cert.Pre_finite_inputs.ColumnRange.cols_range _ _ _ _ _ _ _ _ (hpre c) e)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
